-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_arg2 : IVec S2x500000 32) (main_v32 : IVec S_ 1) (main_c_12 : IVec S_ 32) : IVec S_ 1 :=
  let main_v33 : IVec S2x500000 32 := broadcastInDim S2x500000 ![] bcast_S_S2x500000 main_c_12
  let main_v34 : IVec S2x500000 1 := cmpi .slt main_arg2 main_v33
  let main_c_13 : IVec S_ 1 := constantI S_ 1 1#1
  let main_v35 : IVec S_ 1 := (fun x v => Host.reduce IntOp.andi x v reducesTo_S2x500000_S_d0_1 h_S_) main_v34 main_c_13
  let main_v36 : IVec S_ 1 := andi main_v32 main_v35
  main_v36

def fn_part1 {F : FTy → Type} [FloatOps F] (main_arg2 : IVec S2x500000 32) (main_arg5 : FVec F S256x1 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 4294867296#32
  let main_v29 : IVec S2x500000 32 := broadcastInDim S2x500000 ![] bcast_S_S2x500000 main_c_10
  let main_v30 : IVec S2x500000 1 := cmpi .sge main_arg2 main_v29
  let main_c_11 : IVec S_ 1 := constantI S_ 1 1#1
  let main_v31 : IVec S_ 1 := (fun x v => Host.reduce IntOp.andi x v reducesTo_S2x500000_S_d0_1 h_S_) main_v30 main_c_11
  let main_v32 : IVec S_ 1 := andi main_v28 main_v31
  let main_c_12 : IVec S_ 32 := constantI S_ 32 100000#32
  fn_part2 (F := F) main_arg2 main_v32 main_c_12

def fn {F : FTy → Type} [FloatOps F] (main_arg0 : FVec F S100000x128 .f32) (main_arg1 : FVec F S100000x128 .f32) (main_arg2 : IVec S2x500000 32) (main_arg3 : FVec F S256x256 .f32) (main_arg4 : FVec F S256 .f32) (main_arg5 : FVec F S256x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S100000x128 : Shape := ⟨2, ![100000, 128]⟩
abbrev S2x500000 : Shape := ⟨2, ![2, 500000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S503808 : Shape := ⟨1, ![503808]⟩
abbrev S503808x1 : Shape := ⟨2, ![503808, 1]⟩
abbrev S1x1 : Shape := ⟨2, ![1, 1]⟩
abbrev S503808x128 : Shape := ⟨2, ![503808, 128]⟩
abbrev S503808x256 : Shape := ⟨2, ![503808, 256]⟩
abbrev S1x256 : Shape := ⟨2, ![1, 256]⟩
abbrev S4096x256 : Shape := ⟨2, ![4096, 256]⟩
abbrev S4096x1 : Shape := ⟨2, ![4096, 1]⟩
abbrev S500000x1 : Shape := ⟨2, ![500000, 1]⟩

abbrev nBuf : Space → Nat
  | .hbm => 117
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x500000, .i32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S_, .i32⟩
  | .hbm, ⟨13, _⟩ => ⟨S503808, .i32⟩
  | .hbm, ⟨14, _⟩ => ⟨S_, .i32⟩
  | .hbm, ⟨15, _⟩ => ⟨S_, .i32⟩
  | .hbm, ⟨16, _⟩ => ⟨S503808, .i32⟩
  | .hbm, ⟨17, _⟩ => ⟨S_, .i32⟩
  | .hbm, ⟨18, _⟩ => ⟨S503808, .i32⟩
  | .hbm, ⟨19, _⟩ => ⟨S503808, .i1⟩
  | .hbm, ⟨20, _⟩ => ⟨S_, .i32⟩
  | .hbm, ⟨21, _⟩ => ⟨S503808, .i32⟩
  | .hbm, ⟨22, _⟩ => ⟨S503808, .i32⟩
  | .hbm, ⟨23, _⟩ => ⟨S503808, .i32⟩
  | .hbm, ⟨24, _⟩ => ⟨S503808x1, .i32⟩
  | .hbm, ⟨25, _⟩ => ⟨S1, .i32⟩
  | .hbm, ⟨26, _⟩ => ⟨S_, .i32⟩
  | .hbm, ⟨27, _⟩ => ⟨S503808x1, .i32⟩
  | .hbm, ⟨28, _⟩ => ⟨S503808x1, .i1⟩
  | .hbm, ⟨29, _⟩ => ⟨S1x1, .i32⟩
  | .hbm, ⟨30, _⟩ => ⟨S503808x1, .i32⟩
  | .hbm, ⟨31, _⟩ => ⟨S503808x1, .i1⟩
  | .hbm, ⟨32, _⟩ => ⟨S503808x1, .i1⟩
  | .hbm, ⟨33, _⟩ => ⟨S_, .i1⟩
  | .hbm, ⟨34, _⟩ => ⟨S503808, .i1⟩
  | .hbm, ⟨35, _⟩ => ⟨S503808x128, .f32⟩
  | .hbm, ⟨36, _⟩ => ⟨S503808x128, .i1⟩
  | .hbm, ⟨37, _⟩ => ⟨S_, .f32⟩
  | .hbm, ⟨38, _⟩ => ⟨S503808x128, .f32⟩
  | .hbm, ⟨39, _⟩ => ⟨S503808x128, .f32⟩
  | .hbm, ⟨40, _⟩ => ⟨S_, .i32⟩
  | .hbm, ⟨41, _⟩ => ⟨S503808, .i32⟩
  | .hbm, ⟨42, _⟩ => ⟨S503808, .i1⟩
  | .hbm, ⟨43, _⟩ => ⟨S_, .i32⟩
  | .hbm, ⟨44, _⟩ => ⟨S503808, .i32⟩
  | .hbm, ⟨45, _⟩ => ⟨S503808, .i32⟩
  | .hbm, ⟨46, _⟩ => ⟨S503808, .i32⟩
  | .hbm, ⟨47, _⟩ => ⟨S503808x1, .i32⟩
  | .hbm, ⟨48, _⟩ => ⟨S1, .i32⟩
  | .hbm, ⟨49, _⟩ => ⟨S_, .i32⟩
  | .hbm, ⟨50, _⟩ => ⟨S503808x1, .i32⟩
  | .hbm, ⟨51, _⟩ => ⟨S503808x1, .i1⟩
  | .hbm, ⟨52, _⟩ => ⟨S1x1, .i32⟩
  | .hbm, ⟨53, _⟩ => ⟨S503808x1, .i32⟩
  | .hbm, ⟨54, _⟩ => ⟨S503808x1, .i1⟩
  | .hbm, ⟨55, _⟩ => ⟨S503808x1, .i1⟩
  | .hbm, ⟨56, _⟩ => ⟨S_, .i1⟩
  | .hbm, ⟨57, _⟩ => ⟨S503808, .i1⟩
  | .hbm, ⟨58, _⟩ => ⟨S503808x128, .f32⟩
  | .hbm, ⟨59, _⟩ => ⟨S503808x128, .i1⟩
  | .hbm, ⟨60, _⟩ => ⟨S_, .f32⟩
  | .hbm, ⟨61, _⟩ => ⟨S503808x128, .f32⟩
  | .hbm, ⟨62, _⟩ => ⟨S503808x128, .f32⟩
  | .hbm, ⟨63, _⟩ => ⟨S_, .i32⟩
  | .hbm, ⟨64, _⟩ => ⟨S503808, .i32⟩
  | .hbm, ⟨65, _⟩ => ⟨S503808, .i1⟩
  | .hbm, ⟨66, _⟩ => ⟨S_, .i32⟩
  | .hbm, ⟨67, _⟩ => ⟨S503808, .i32⟩
  | .hbm, ⟨68, _⟩ => ⟨S503808, .i32⟩
  | .hbm, ⟨69, _⟩ => ⟨S503808, .i32⟩
  | .hbm, ⟨70, _⟩ => ⟨S503808x1, .i32⟩
  | .hbm, ⟨71, _⟩ => ⟨S1, .i32⟩
  | .hbm, ⟨72, _⟩ => ⟨S_, .i32⟩
  | .hbm, ⟨73, _⟩ => ⟨S503808x1, .i32⟩
  | .hbm, ⟨74, _⟩ => ⟨S503808x1, .i1⟩
  | .hbm, ⟨75, _⟩ => ⟨S1x1, .i32⟩
  | .hbm, ⟨76, _⟩ => ⟨S503808x1, .i32⟩
  | .hbm, ⟨77, _⟩ => ⟨S503808x1, .i1⟩
  | .hbm, ⟨78, _⟩ => ⟨S503808x1, .i1⟩
  | .hbm, ⟨79, _⟩ => ⟨S_, .i1⟩
  | .hbm, ⟨80, _⟩ => ⟨S503808, .i1⟩
  | .hbm, ⟨81, _⟩ => ⟨S503808x128, .f32⟩
  | .hbm, ⟨82, _⟩ => ⟨S503808x128, .i1⟩
  | .hbm, ⟨83, _⟩ => ⟨S_, .f32⟩
  | .hbm, ⟨84, _⟩ => ⟨S503808x128, .f32⟩
  | .hbm, ⟨85, _⟩ => ⟨S503808x128, .f32⟩
  | .hbm, ⟨86, _⟩ => ⟨S_, .i32⟩
  | .hbm, ⟨87, _⟩ => ⟨S503808, .i32⟩
  | .hbm, ⟨88, _⟩ => ⟨S503808, .i1⟩
  | .hbm, ⟨89, _⟩ => ⟨S_, .i32⟩
  | .hbm, ⟨90, _⟩ => ⟨S503808, .i32⟩
  | .hbm, ⟨91, _⟩ => ⟨S503808, .i32⟩
  | .hbm, ⟨92, _⟩ => ⟨S503808, .i32⟩
  | .hbm, ⟨93, _⟩ => ⟨S503808x1, .i32⟩
  | .hbm, ⟨94, _⟩ => ⟨S1, .i32⟩
  | .hbm, ⟨95, _⟩ => ⟨S_, .i32⟩
  | .hbm, ⟨96, _⟩ => ⟨S503808x1, .i32⟩
  | .hbm, ⟨97, _⟩ => ⟨S503808x1, .i1⟩
  | .hbm, ⟨98, _⟩ => ⟨S1x1, .i32⟩
  | .hbm, ⟨99, _⟩ => ⟨S503808x1, .i32⟩
  | .hbm, ⟨100, _⟩ => ⟨S503808x1, .i1⟩
  | .hbm, ⟨101, _⟩ => ⟨S503808x1, .i1⟩
  | .hbm, ⟨102, _⟩ => ⟨S_, .i1⟩
  | .hbm, ⟨103, _⟩ => ⟨S503808, .i1⟩
  | .hbm, ⟨104, _⟩ => ⟨S503808x128, .f32⟩
  | .hbm, ⟨105, _⟩ => ⟨S503808x128, .i1⟩
  | .hbm, ⟨106, _⟩ => ⟨S_, .f32⟩
  | .hbm, ⟨107, _⟩ => ⟨S503808x128, .f32⟩
  | .hbm, ⟨108, _⟩ => ⟨S503808x128, .f32⟩
  | .hbm, ⟨109, _⟩ => ⟨S503808x128, .f32⟩
  | .hbm, ⟨110, _⟩ => ⟨S503808x128, .f32⟩
  | .hbm, ⟨111, _⟩ => ⟨S503808x256, .f32⟩
  | .hbm, ⟨112, _⟩ => ⟨S503808x256, .bf16⟩
  | .hbm, ⟨113, _⟩ => ⟨S1x256, .f32⟩
  | .hbm, ⟨114, _⟩ => ⟨S1x1, .f32⟩
  | .hbm, ⟨115, _⟩ => ⟨S503808x1, .f32⟩
  | .hbm, ⟨116, _⟩ => ⟨S500000x1, .f32⟩
  | .local _ .vmem, ⟨0, _⟩ => ⟨S4096x256, .bf16⟩
  | .local _ .vmem, ⟨1, _⟩ => ⟨S4096x256, .bf16⟩
  | .local _ .vmem, ⟨2, _⟩ => ⟨S256x256, .f32⟩
  | .local _ .vmem, ⟨3, _⟩ => ⟨S1x256, .f32⟩
  | .local _ .vmem, ⟨4, _⟩ => ⟨S256x1, .f32⟩
  | .local _ .vmem, ⟨5, _⟩ => ⟨S1x1, .f32⟩
  | .local _ .vmem, ⟨6, _⟩ => ⟨S4096x1, .f32⟩
  | .local _ .vmem, ⟨7, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_c_1 : Ref sig .tc := ⟨.hbm, 25, rfl⟩
abbrev main_call2_c_2 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_3 : Ref sig .tc := ⟨.hbm, 33, rfl⟩
abbrev main_call2_v12 : Ref sig .tc := ⟨.hbm, 34, rfl⟩
abbrev main_call2_v13 : Ref sig .tc := ⟨.hbm, 35, rfl⟩
abbrev main_call2_v14 : Ref sig .tc := ⟨.hbm, 36, rfl⟩
abbrev main_call2_cst : Ref sig .tc := ⟨.hbm, 37, rfl⟩
abbrev main_call2_v15 : Ref sig .tc := ⟨.hbm, 38, rfl⟩
abbrev main_v6 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_v14 : Ref sig .tc := ⟨.hbm, 59, rfl⟩
abbrev main_call3_cst : Ref sig .tc := ⟨.hbm, 60, rfl⟩
abbrev main_call3_v15 : Ref sig .tc := ⟨.hbm, 61, rfl⟩
abbrev main_v7 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_c_1 : Ref sig .tc := ⟨.hbm, 71, rfl⟩
abbrev main_call4_c_2 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_3 : Ref sig .tc := ⟨.hbm, 79, rfl⟩
abbrev main_call4_v12 : Ref sig .tc := ⟨.hbm, 80, rfl⟩
abbrev main_call4_v13 : Ref sig .tc := ⟨.hbm, 81, rfl⟩
abbrev main_call4_v14 : Ref sig .tc := ⟨.hbm, 82, rfl⟩
abbrev main_call4_cst : Ref sig .tc := ⟨.hbm, 83, rfl⟩
abbrev main_call4_v15 : Ref sig .tc := ⟨.hbm, 84, rfl⟩
abbrev main_v8 : Ref sig .tc := ⟨.hbm, 85, rfl⟩
abbrev main_call5_c : Ref sig .tc := ⟨.hbm, 86, rfl⟩
abbrev main_call5_v0 : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c_1 : Ref sig .tc := ⟨.hbm, 94, rfl⟩
abbrev main_call5_c_2 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_3 : Ref sig .tc := ⟨.hbm, 102, rfl⟩
abbrev main_call5_v12 : Ref sig .tc := ⟨.hbm, 103, rfl⟩
abbrev main_call5_v13 : Ref sig .tc := ⟨.hbm, 104, rfl⟩
abbrev main_call5_v14 : Ref sig .tc := ⟨.hbm, 105, rfl⟩
abbrev main_call5_cst : Ref sig .tc := ⟨.hbm, 106, rfl⟩
abbrev main_call5_v15 : Ref sig .tc := ⟨.hbm, 107, rfl⟩
abbrev main_v9 : Ref sig .tc := ⟨.hbm, 108, rfl⟩
abbrev main_v10 : Ref sig .tc := ⟨.hbm, 109, rfl⟩
abbrev main_v11 : Ref sig .tc := ⟨.hbm, 110, rfl⟩
abbrev main_v12 : Ref sig .tc := ⟨.hbm, 111, rfl⟩
abbrev main_v13 : Ref sig .tc := ⟨.hbm, 112, rfl⟩
abbrev main_v14 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  pads_S500000_S503808_038080 : S500000.Pads (![0] : Fin 1 → Nat) ![3808] ![0] S503808
  h_S_ : 0 < S_.numel
  bcast_S_S503808 : S_.BroadcastsInDim S503808 (![] : Fin 0 → Fin S503808.rank)
  bcast_S503808_S503808x1_0 : S503808.BroadcastsInDim S503808x1 (![0] : Fin 1 → Fin S503808x1.rank)
  bcast_S_S503808x1 : S_.BroadcastsInDim S503808x1 (![] : Fin 0 → Fin S503808x1.rank)
  bcast_S1_S1x1_1 : S1.BroadcastsInDim S1x1 (![1] : Fin 1 → Fin S1x1.rank)
  bcast_S1x1_S503808x1_0_1 : S1x1.BroadcastsInDim S503808x1 (![0, 1] : Fin 2 → Fin S503808x1.rank)
  reducesTo_S503808x1_S503808_d1 : S503808x1.ReducesTo [1] S503808
  bcast_S503808_S503808x128_0 : S503808.BroadcastsInDim S503808x128 (![0] : Fin 1 → Fin S503808x128.rank)
  bcast_S_S503808x128 : S_.BroadcastsInDim S503808x128 (![] : Fin 0 → Fin S503808x128.rank)
  concatenates_S503808x128_S503808x128_S503808x256_d1 : Shape.Concatenates [S503808x128, S503808x128] S503808x256 1
  bitsLt_bf16_f32 : FTy.bits .bf16 < FTy.bits .f32
  shapeCasts_S256_S1x256 : S256.ShapeCasts S1x256
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  slices_S503808x1_S500000x1_0_0 : S503808x1.Slices ![0, 0] S500000x1
  gather_S100000x128_S503808x1_S503808x128_1_0_n_n_0_1_1128_wf : GatherDims.WF S100000x128 S503808x1 S503808x128 [1] [0] [] [0] [] 1 ![1, 128]
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S503808x256.size a
  hwx0_0 : ∀ i : grid0.Coords, EltTy.bits .bf16 = 32 ∨ (Rect.block (s := S503808x256) S4096x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S503808x1.size a
  hwx0_5 : ∀ i : grid0.Coords, EltTy.bits .f32 = 32 ∨ (Rect.block (s := S503808x1) S4096x1.size (cc0_transform_5 i) (hinb0_5 i)).WholeWords (EltTy.packing .f32)

variable [Facts₀]

def gather_S100000x128_S503808x1_S503808x128_1_0_n_n_0_1_1128 : GatherDims S100000x128 S503808x1 S503808x128 where
  offsetDims := [1]
  collapsedSliceDims := [0]
  operandBatchingDims := []
  startIndicesBatchingDims := []
  startIndexMap := [0]
  indexVectorDim := 1
  sliceSizes := ![1, 128]
  wf := gather_S100000x128_S503808x1_S503808x128_1_0_n_n_0_1_1128_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v13) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S4096x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S1x256 : Shape := ⟨2, ![1, 256]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x500000, .i32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S500000x128, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x128, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x128, .f32⟩
  | .hbm, ⟨48, _⟩ => ⟨S500000x128, .f32⟩
  | .hbm, ⟨49, _⟩ => ⟨S500000x256, .f32⟩
  | .hbm, ⟨50, _⟩ => ⟨S500000x256, .f32⟩
  | .hbm, ⟨51, _⟩ => ⟨S1x256, .f32⟩
  | .hbm, ⟨52, _⟩ => ⟨S500000x256, .f32⟩
  | .hbm, ⟨53, _⟩ => ⟨S500000x256, .f32⟩
  | .hbm, ⟨54, _⟩ => ⟨S_, .f32⟩
  | .hbm, ⟨55, _⟩ => ⟨S500000x256, .f32⟩
  | .hbm, ⟨56, _⟩ => ⟨S500000x256, .f32⟩
  | .hbm, ⟨57, _⟩ => ⟨S500000x1, .f32⟩
  | .hbm, ⟨58, _⟩ => ⟨S1x1, .f32⟩
  | .hbm, ⟨59, _⟩ => ⟨S500000x1, .f32⟩
  | .hbm, ⟨60, _⟩ => ⟨S500000x1, .f32⟩
  | .hbm, ⟨61, _⟩ => ⟨S500000x1, .f32⟩
  | .hbm, ⟨62, _⟩ => ⟨S500000x1, .f32⟩
  | .hbm, ⟨63, _⟩ => ⟨S_, .f32⟩
  | .hbm, ⟨64, _⟩ => ⟨S500000x1, .f32⟩
  | .hbm, ⟨65, _⟩ => ⟨S500000x1, .f32⟩
  | .hbm, ⟨66, _⟩ => ⟨S_, .f32⟩
  | .hbm, ⟨67, _⟩ => ⟨S500000x1, .f32⟩
  | .hbm, ⟨68, _⟩ => ⟨S500000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call0_cst : Ref sig .tc := ⟨.hbm, 54, rfl⟩
abbrev main_call0_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  gather_S100000x128_S500000x1_S500000x128_1_0_n_n_0_1_1128_wf : GatherDims.WF S100000x128 S500000x1 S500000x128 [1] [0] [] [0] [] 1 ![1, 128]
  dot_S500000x256_S256x256_S500000x256_1_0_0_1_n_n_wf : DotDims.WF S500000x256 S256x256 S500000x256 [1] [0] [0] [1] [] []
  dot_S500000x256_S256x1_S500000x1_1_0_0_1_n_n_wf : DotDims.WF S500000x256 S256x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.Decoder.lean ====
/-
  The edge decoder on one feature row.

  An edge's feature row x has 256 entries: the entrywise product of the two endpoint rows of the first node table,
  followed by the entrywise product of the two endpoint rows of the second. The decoder sends it through a hidden
  layer of 256 units with the positive part, hidden j = max (sum over k of x k * W1 (k, j) + b1 j) 0, then through
  one output unit, score = sum over j of hidden j * W2 (j, 0) + b2 0, and answers the logistic function of the score.
  Both programs compute exactly this sum of products, in this order of the summation indices, so no law of the
  extended reals beyond reading each operation at an index is needed, and no finiteness.
  The logistic function is spelled 1 / (1 + exp (-s)) by one program and named by the other; on the extended reals
  the name is that expression.
-/
import Idealize.ShloMosaic.PureOps.Ideal
import Idealize.ShloMosaic.PureOps.Ideal.Laws
import Idealize.ShloMosaic.Lib.ValueIdx

noncomputable section

open scoped BigOperators

namespace Cert.EdgeDecoder

open Idealize.ShloMosaic Idealize.ShloMosaic.ValueIdx

/-- The word of the float 1.0 denotes the real 1. -/
theorem one_word : Ideal.ofBits .f32 0x3F800000#32 = 1 := by
  simp [Ideal.ofBits, Ideal.ieee, -EReal.coe_mul]; norm_num

/-- The logistic function spelled with a quotient and an exponential is the named one. -/
theorem logistic_spelled (s : EReal) : Ideal.div 1 (1 + Ideal.exp (-s)) = Ideal.logistic s := rfl

/-- Hidden unit j of a feature row: the affine form in the row, cut off below at zero. -/
def hidden (W1 : (⟨2, ![256, 256]⟩ : Shape).Idx → EReal) (b1 : (⟨1, ![256]⟩ : Shape).Idx → EReal)
    (x : Fin 256 → EReal) (j : Fin 256) : EReal :=
  max ((∑ k : Fin 256, x k * W1 (ix2 k j)) + b1 (ix1 j)) 0

/-- The output unit's score of a feature row. -/
def score (W1 : (⟨2, ![256, 256]⟩ : Shape).Idx → EReal) (b1 : (⟨1, ![256]⟩ : Shape).Idx → EReal)
    (W2 : (⟨2, ![256, 1]⟩ : Shape).Idx → EReal) (b2 : (⟨1, ![1]⟩ : Shape).Idx → EReal)
    (x : Fin 256 → EReal) : EReal :=
  (∑ j : Fin 256, hidden W1 b1 x j * W2 (ix2 j 0)) + b2 (ix1 0)

/-- The decoder's answer for a feature row. -/
def decodeRow (W1 : (⟨2, ![256, 256]⟩ : Shape).Idx → EReal) (b1 : (⟨1, ![256]⟩ : Shape).Idx → EReal)
    (W2 : (⟨2, ![256, 1]⟩ : Shape).Idx → EReal) (b2 : (⟨1, ![1]⟩ : Shape).Idx → EReal)
    (x : Fin 256 → EReal) : EReal :=
  Ideal.logistic (score W1 b1 W2 b2 x)

end Cert.EdgeDecoder

end
-- ==== Proof.Block.lean ====
/-
  One block of the kernel, row by row.

  At a grid point the kernel body holds a 4096 x 256 block of feature rows, the two weight matrices and the two
  bias rows, and stores one number per row. Row p of what it stores is the decoder's answer for row p of the
  feature block: the first product into a zero accumulator is, at (p, j), the sum over k of x (p, k) * W1 (k, j);
  the bias row is broadcast down the rows; the positive part is taken against a broadcast zero; the second product
  is, at (p, 0), the sum over j of hidden (p, j) * W2 (j, 0); the changes of float format in between are the
  identity on extended reals.
-/
import proofs.«414152_j2310692405394_2_alg».proof.Proof.Gen.KernelIdeal.Skeleton
import proofs.«414152_j2310692405394_2_alg».proof.Proof.LibPlainDot
import proofs.«414152_j2310692405394_2_alg».proof.Proof.Decoder
import Idealize.ShloMosaic.Lib.Pipeline.Value
import Idealize.ShloMosaic.Lib.ValueIdx
import Idealize.ShloMosaic.PureOps.Ideal.Laws

noncomputable section

open scoped BigOperators

namespace Cert.KernelIdeal.BlockValue

open Idealize.ShloMosaic Idealize.ShloMosaic.ValueIdx Idealize.ShloMosaic.Pipeline
open Cert.KernelIdeal Cert.EdgeDecoder

variable [Cert.KernelIdeal.Facts]
open Cert.KernelIdeal.Facts₀ Cert.KernelIdeal.Facts

/-- The first product's contraction pattern is the plain one, rows x inner by inner x columns. -/
theorem dot1_plain : dot_S4096x256_S256x256_S4096x256_1_0_0_1_n_n = DotDims.plain 4096 256 256 := rfl

/-- So is the second product's. -/
theorem dot2_plain : dot_S4096x256_S256x1_S4096x1_1_0_0_1_n_n = DotDims.plain 4096 256 1 := rfl

/-- The bias row broadcast down the rows reads, at (p, j), the row's entry j. -/
theorem bias1_apply (x2 : Vec Ideal S1x256 .f32) (p : Fin 4096) (j : Fin 256) :
    broadcastTo S4096x256 (shapeCast S1x256 x2 shapeCasts_S1x256_S1x256) broadcasts_S1x256_S4096x256 (ix2 p j)
      = x2 (ix2 0 j) := by
  rw [shapeCast_self]
  refine broadcastTo_apply x2 broadcasts_S1x256_S4096x256 (ix2 p j) (ix2 0 j) ?_
  intro a
  match a with
  | ⟨0, _⟩ => rfl
  | ⟨1, _⟩ => rfl

/-- The output bias broadcast down the rows reads, at (p, 0), its one entry. -/
theorem bias2_apply (x4 : Vec Ideal S1x1 .f32) (p : Fin 4096) :
    broadcastTo S4096x1 (shapeCast S1x1 x4 shapeCasts_S1x1_S1x1) broadcasts_S1x1_S4096x1 (ix2 p 0)
      = x4 (ix2 0 0) := by
  rw [shapeCast_self]
  refine broadcastTo_apply x4 broadcasts_S1x1_S4096x1 (ix2 p 0) (ix2 0 0) ?_
  intro a
  match a with
  | ⟨0, _⟩ => rfl
  | ⟨1, _⟩ => rfl

/-- The hidden layer of the block, at row p and unit j. -/
theorem hidden_apply (x0 : Vec Ideal S4096x256 .bf16) (x1 : Vec Ideal S256x256 .f32) (x2 : Vec Ideal S1x256 .f32)
    (p : Fin 4096) (j : Fin 256) :
    maximumf (F := Ideal)
        (addf (F := Ideal)
          (matmul (F := Ideal) dot_S4096x256_S256x256_S4096x256_1_0_0_1_n_n none
            (shapeCast S4096x256 (x0 : FVec Ideal S4096x256 .bf16) shapeCasts_S4096x256_S4096x256 : FVec Ideal S4096x256 .bf16)
            (truncf (F := Ideal) .bf16 (x1 : FVec Ideal S256x256 .f32) bitsLt_bf16_f32 : FVec Ideal S256x256 .bf16)
            (constant (F := Ideal) S4096x256 .f32 0x00000000#32))
          (broadcastTo S4096x256 (shapeCast S1x256 (x2 : FVec Ideal S1x256 .f32) shapeCasts_S1x256_S1x256) broadcasts_S1x256_S4096x256 : FVec Ideal S4096x256 .f32))
        (broadcast S4096x256 (Scalar.ofBits (F := Ideal) .f32 0x00000000#32)) (ix2 p j)
      = EdgeDecoder.hidden x1 (fun j => x2 (ix2 0 (j 0))) (fun k => x0 (ix2 p k)) j := by
  rw [maximumf_apply, addf_apply, bias1_apply, broadcast_apply, shapeCast_self]
  unfold EdgeDecoder.hidden
  refine congrArg₂ max (congrArg₂ (· + ·) ?_ rfl) Ideal.ofBits_zero_f32
  exact LibPlainDot.matmul_zero_apply (M := 4096) (K := 256) (N := 256) none x0 (truncf .bf16 x1 bitsLt_bf16_f32) (ix2 p j)

/-- Row p of what the body stores is the decoder's answer for row p of the feature block. -/
theorem pay_row (x0 : Vec Ideal S4096x256 .bf16) (x1 : Vec Ideal S256x256 .f32) (x2 : Vec Ideal S1x256 .f32)
    (x3 : Vec Ideal S256x1 .f32) (x4 : Vec Ideal S1x1 .f32) (p : Fin 4096) :
    Gen.k0_pay1 (F := Ideal) x0 x1 x2 x3 x4 (ix2 p 0)
      = decodeRow x1 (fun j => x2 (ix2 0 (j 0))) x3 (fun _ => x4 (ix2 0 0)) (fun k => x0 (ix2 p k)) := by
  unfold Gen.k0_pay1
  show Ideal.logistic (_ + _) = _
  unfold decodeRow score
  refine congrArg Ideal.logistic (congrArg₂ (· + ·) ?_ (bias2_apply x4 p))
  refine (LibPlainDot.matmul_zero_apply (M := 4096) (K := 256) (N := 1) none _ (truncf .bf16 x3 bitsLt_bf16_f32) (ix2 p 0)).trans ?_
  refine Finset.sum_congr rfl fun j _ => congrArg₂ (· * ·) ?_ rfl
  exact hidden_apply x0 x1 x2 p j

end Cert.KernelIdeal.BlockValue

end
-- ==== Proof.Blocks.lean ====
/-
  The kernel's windows, block by block.

  The region's grid has 123 points; point t stages rows 4096 t ... 4096 t + 4095 of the feature array and writes
  back the same rows of the padded output column; the two weight matrices and the two bias rows are staged whole at
  every point. These are facts about the printed index maps, decided once over the grid; each block then reads
  its array at the block's offset plus the coordinate inside the block.
-/
import proofs.«414152_j2310692405394_2_alg».proof.Proof.Gen.KernelIdeal.Frame
import proofs.«414152_j2310692405394_2_alg».proof.Proof.Block
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat Cfg Window)
open Cert.KernelIdeal Cert.EdgeDecoder

variable (m : (ℓ : Loc nD τ sig) → Buf (Elt Ideal) ℓ) (ρ : Dev nD → PrngReg)

theorem zero_offsets : (![0, 0] : Fin 2 → Nat) = fun _ => 0 := funext fun a => by fin_cases a <;> rfl

/-- What the padded output column ends holding: row r is the decoder's answer for row r of the feature array,
    with the weights and biases as the region finds them. -/
def paddedAnswers (c : Dev nD) : S503808x1.Idx → EReal := fun i =>
  decodeRow (Gen.V m c main_arg3) (fun j => Gen.V m c main_v14 (ix2 0 (j 0))) (Gen.V m c main_arg5)
    (fun _ => Gen.V m c main_v15 (ix2 0 0)) (fun k => Gen.V m c main_v13 (ix2 (i 0) k))

/-- The printed index maps, decided over the grid: the feature window and the output window move one block of
    rows per point; the other four windows stay on their whole arrays. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 122 ∧ win0_5.index t (1 : Fin 2) = 0 :=
  (by decide +kernel : ∀ t : Fin grid0.N, _)

/-- Every block of rows is some point's. -/
theorem index_onto : ∀ q : Fin 123, ∃ t : Fin cfg0.N, win0_5.index t = ![q.val, 0] :=
  (by decide +kernel : ∀ q : Fin 123, ∃ t : Fin grid0.N, win0_5.index t = ![q.val, 0])

/-- A whole-array window's block is the array. -/
theorem block_w1 (c : Dev nD) (t : Fin cfg0.N) : (Gen.iblk m c 1 t : S256x256.Idx → EReal) = Gen.V m c main_arg3 := by
  obtain ⟨-, -, e0, e1, -⟩ := index_facts t
  funext y
  show Gen.V m c main_arg3 (((cfg0.win 1).blk t).view.emb y) = Gen.V m c main_arg3 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

@[inherit_doc block_w1]
theorem block_b1 (c : Dev nD) (t : Fin cfg0.N) : (Gen.iblk m c 2 t : S1x256.Idx → EReal) = Gen.V m c main_v14 := by
  obtain ⟨-, -, -, -, e0, e1, -⟩ := index_facts t
  funext y
  show Gen.V m c main_v14 (((cfg0.win 2).blk t).view.emb y) = Gen.V m c main_v14 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

@[inherit_doc block_w1]
theorem block_w2 (c : Dev nD) (t : Fin cfg0.N) : (Gen.iblk m c 3 t : S256x1.Idx → EReal) = Gen.V m c main_arg5 := by
  obtain ⟨-, -, -, -, -, -, e0, e1, -⟩ := index_facts t
  funext y
  show Gen.V m c main_arg5 (((cfg0.win 3).blk t).view.emb y) = Gen.V m c main_arg5 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 1 + 1 * (y 1).val = (y 1).val; omega

@[inherit_doc block_w1]
theorem block_b2 (c : Dev nD) (t : Fin cfg0.N) : (Gen.iblk m c 4 t : S1x1.Idx → EReal) = Gen.V m c main_v15 := by
  obtain ⟨-, -, -, -, -, -, -, -, e0, e1, -⟩ := index_facts t
  funext y
  show Gen.V m c main_v15 (((cfg0.win 4).blk t).view.emb y) = Gen.V m c main_v15 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

/-- Row p of the feature block at point t is the feature array's row that row p of the output block is. -/
theorem block_features (c : Dev nD) (t : Fin cfg0.N) (p : Fin 4096) (k : Fin 256) :
    (Gen.iblk m c 0 t : S4096x256.Idx → EReal) (ix2 p k)
      = Gen.V m c main_v13 (ix2 ((((cfg0.win 5).blk t).view.emb (ix2 p (0 : Fin 1))) 0) k) := by
  obtain ⟨e0, e1, -⟩ := index_facts t
  show Gen.V m c main_v13 (((cfg0.win 0).blk t).view.emb (ix2 p k)) = _
  refine congrArg _ (funext fun a => Fin.ext ?_)
  match a with
  | ⟨0, _⟩ => show win0_0.index t (0 : Fin 2) * 4096 + 1 * p.val = win0_5.index t (0 : Fin 2) * 4096 + 1 * p.val; omega
  | ⟨1, _⟩ => show win0_0.index t (1 : Fin 2) * 256 + 1 * k.val = k.val; omega

end Cert.KernelIdeal.ArrayValue

end
-- ==== Proof.KernelValue.lean ====
/-
  The kernel's result array.

  By the block lemma each row the body stores is the decoder's answer for that row of the feature block, so every
  written block is the restriction of one whole-array function, the blocks cover the padded column (row r is in
  block r / 4096), and the padded column ends holding that function.
-/
import proofs.«414152_j2310692405394_2_alg».proof.Proof.Blocks

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat Cfg Window)
open Cert.KernelIdeal Cert.EdgeDecoder

variable (m : (ℓ : Loc nD τ sig) → Buf (Elt Ideal) ℓ) (ρ : Dev nD → PrngReg)

/-- Row p of what the body stores at point t is the decoder's answer for row p of the point's feature block, with
    the point's weight and bias blocks. -/
theorem stored_row (c : Dev nD) (t : Fin cfg0.N) (p : Fin 4096) :
    Gen.k0_pay1 (F := Ideal) (Gen.iblk m c 0 t) (Gen.iblk m c 1 t) (Gen.iblk m c 2 t) (Gen.iblk m c 3 t) (Gen.iblk m c 4 t)
        (ix2 p (0 : Fin 1))
      = decodeRow (Gen.iblk m c 1 t) (fun j => Gen.iblk m c 2 t (ix2 0 (j 0))) (Gen.iblk m c 3 t)
          (fun _ => Gen.iblk m c 4 t (ix2 0 0)) (fun k => Gen.iblk m c 0 t (ix2 p k)) :=
  BlockValue.pay_row (Gen.iblk m c 0 t) (Gen.iblk m c 1 t) (Gen.iblk m c 2 t) (Gen.iblk m c 3 t) (Gen.iblk m c 4 t) p

/-- With the blocks read off their arrays, that is the padded answers at the row the block's row p is. -/
theorem stored_row_answers (c : Dev nD) (t : Fin cfg0.N) (p : Fin 4096) :
    decodeRow (Gen.iblk m c 1 t) (fun j => Gen.iblk m c 2 t (ix2 0 (j 0))) (Gen.iblk m c 3 t)
        (fun _ => Gen.iblk m c 4 t (ix2 0 0)) (fun k => Gen.iblk m c 0 t (ix2 p k))
      = paddedAnswers m c (((cfg0.win 5).blk t).view.emb (ix2 p (0 : Fin 1))) := by
  unfold paddedAnswers
  rw [block_w1 m c t, block_b1 m c t, block_w2 m c t, block_b2 m c t]
  exact congrArg (decodeRow (Gen.V m c main_arg3) (fun j => Gen.V m c main_v14 (ix2 0 (j 0))) (Gen.V m c main_arg5)
    (fun _ => Gen.V m c main_v15 (ix2 0 0))) (funext fun k => block_features m c t p k)

/-- Two contents of the output block that agree at every row are equal: the block has one column. -/
theorem block_ext (c : Dev nD) (t : Fin cfg0.N) (X : S4096x1.Idx → EReal) (G : S503808x1.Idx → EReal)
    (H : ∀ p : Fin 4096, (cfg0.win 5).cut (grid0.coords t) X (ix2 p (0 : Fin 1))
      = ((cfg0.win 5).blk t).view.read (Elt Ideal) G (ix2 p (0 : Fin 1))) :
    (cfg0.win 5).cut (grid0.coords t) X = ((cfg0.win 5).blk t).view.read (Elt Ideal) G := by
  funext y
  revert y
  show ∀ y : S4096x1.Idx, _ = _
  intro y
  obtain ⟨p, q, rfl⟩ : ∃ (p : Fin 4096) (q : Fin 1), y = ix2 p q := ⟨y 0, y 1, eq_ix2 y⟩
  obtain rfl : q = 0 := Subsingleton.elim _ _
  exact H p

set_option maxRecDepth 1000000 in
/-- The output window is not cut at the array's end: what a point writes back is, row by row, what the body stored. -/
theorem cut_row (c : Dev nD) (t : Fin cfg0.N) (p : Fin 4096) :
    (cfg0.win 5).cut (grid0.coords t)
        (Gen.k0_pay1 (F := Ideal) (Gen.iblk m c 0 t) (Gen.iblk m c 1 t) (Gen.iblk m c 2 t) (Gen.iblk m c 3 t) (Gen.iblk m c 4 t))
        (ix2 p (0 : Fin 1))
      = Gen.k0_pay1 (F := Ideal) (Gen.iblk m c 0 t) (Gen.iblk m c 1 t) (Gen.iblk m c 2 t) (Gen.iblk m c 3 t) (Gen.iblk m c 4 t)
          (ix2 p (0 : Fin 1)) := rfl

set_option maxRecDepth 1000000 in
/-- Row p of block t of an array is the array at the block's row p. -/
theorem read_row (t : Fin cfg0.N) (p : Fin 4096) (G : S503808x1.Idx → EReal) :
    ((cfg0.win 5).blk t).view.read (Elt Ideal) G (ix2 p (0 : Fin 1))
      = G (((cfg0.win 5).blk t).view.emb (ix2 p (0 : Fin 1))) := rfl

/-- Row p of what point t writes back is row p of block t of the padded answers. -/
theorem stored_block_row (c : Dev nD) (t : Fin cfg0.N) (p : Fin 4096) :
    (cfg0.win 5).cut (grid0.coords t)
        (Gen.k0_pay1 (F := Ideal) (Gen.iblk m c 0 t) (Gen.iblk m c 1 t) (Gen.iblk m c 2 t) (Gen.iblk m c 3 t) (Gen.iblk m c 4 t))
        (ix2 p (0 : Fin 1))
      = ((cfg0.win 5).blk t).view.read (Elt Ideal) (paddedAnswers m c) (ix2 p (0 : Fin 1)) :=
  (cut_row m c t p).trans ((stored_row m c t p).trans ((stored_row_answers m c t p).trans (read_row t p (paddedAnswers m c)).symm))

set_option maxRecDepth 1000000 in
/-- What point t writes back is block t of the padded answers. -/
theorem flushed_eq (c : Dev nD) (t : Fin cfg0.N) :
    (Gen.dats m 0 c).flushed 5 t = ((cfg0.win 5).blk t).view.read (Elt Ideal) (paddedAnswers m c) := by
  show (cfg0.win 5).cut (grid0.coords t) ((Gen.dats m 0 c).after 5 t) = _
  rw [Gen.after0_5]
  unfold Gen.out0_5
  rw [View.canon_unit_zero zero_offsets]
  simp only [View.ld_unit_zero (S := S4096x256) zero_offsets, View.ld_unit_zero (S := S256x256) zero_offsets,
    View.ld_unit_zero (S := S1x256) zero_offsets, View.ld_unit_zero (S := S256x1) zero_offsets,
    View.ld_unit_zero (S := S1x1) zero_offsets]
  exact block_ext c t
    (Gen.k0_pay1 (F := Ideal) (Gen.iblk m c 0 t) (Gen.iblk m c 1 t) (Gen.iblk m c 2 t) (Gen.iblk m c 3 t) (Gen.iblk m c 4 t))
    (paddedAnswers m c) (stored_block_row m c t)

/-- An index of the padded column is in point t's block iff each coordinate is in the block's range. -/
theorem mem_block (t : Fin cfg0.N) (i : S503808x1.Idx) :
    i ∈ ((cfg0.win 5).blk t).view.set ↔
      ∀ a : Fin 2, win0_5.index t a * S4096x1.size a ≤ (i a).val ∧ (i a).val < win0_5.index t a * S4096x1.size a + S4096x1.size a := by
  show i ∈ ((View.whole main_v16).slice (win0_5.rect t)).set ↔ _
  rw [View.set_slice_whole, Rect.mem_set_unit]
  exact Iff.rfl

/-- The blocks cover the padded column: row r is in block r / 4096. -/
theorem covered (i : S503808x1.Idx) :
    ∃ t : Fin cfg0.N, (cfg0.win 5).flush t = true ∧ i ∈ ((cfg0.win 5).blk t).view.set := by
  have h0 : (i 0).val < 503808 := (i 0).isLt
  have h1 : (i 1).val < 1 := (i 1).isLt
  obtain ⟨t, ht⟩ := index_onto ⟨(i 0).val / 4096, by omega⟩
  have q0 : win0_5.index t (0 : Fin 2) = (i 0).val / 4096 := congrFun ht 0
  have q1 : win0_5.index t (1 : Fin 2) = 0 := congrFun ht 1
  refine ⟨t, Gen.flush0_5 t, ?_⟩
  rw [mem_block]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 1 ≤ (i 1).val ∧ (i 1).val < win0_5.index t (1 : Fin 2) * 1 + 1; omega

/-- The padded output column after the region. -/
theorem padded_final (c : Dev nD) : (Gen.dats m 0 c).arrAt 5 cfg0.N = paddedAnswers m c :=
  (Gen.dats m 0 c).arrAt_eq_of_cover 5 (paddedAnswers m c) (fun t _ => flushed_eq m c t) covered

end Cert.KernelIdeal.ArrayValue

end
-- ==== Proof.LibTypedRef.lean ====
/-
  Typed references: contents moved to the buffer's own type and back.

  A typed reference carries the type of the tensor value its buffer holds, and an operation of a module-local
  function moves contents between that type and the buffer's own type along the equation of the two. Moving there
  and back, in either order, changes nothing. Nothing here depends on a program.
-/
import Idealize.ShloMosaic.Lib.StableHlo

namespace Cert.LibTypedRef

open Idealize.ShloMosaic

variable {sig : RefSig} {Val : EltTy → Type} {T : BufTy}

/-- Contents moved to a typed reference's buffer and back are unchanged. -/
theorem ofBuf_toBuf (x : StableHlo.TRef sig T) (v : T.Contents Val) : x.ofBuf (x.toBuf v) = v := by
  obtain ⟨r, rfl, _, _⟩ := x
  rfl

/-- Contents of a typed reference's buffer moved to the value's type and back are unchanged. -/
theorem toBuf_ofBuf (x : StableHlo.TRef sig T) (v : x.ref.ty.Contents Val) : x.toBuf (x.ofBuf v) = v := by
  obtain ⟨r, rfl, _, _⟩ := x
  rfl

end Cert.LibTypedRef
-- ==== Proof.HostFeatures.lean ====
/-
  The kernel's feature array, as the host operations before the region compute it.

  The two rows of the edge array are the endpoints' row numbers. Each is padded with zeros to 503808 entries
  (123 blocks of 4096). A padded row-number vector indexes a node table the "fill" way: a negative number counts
  from the back (100000 is added), the wrapped number is tested against [0, 99999], the table's row is taken at the
  wrapped number clamped into the table, and where the test fails the row is replaced by a row of the not-a-number
  word. The feature array is the concatenation, along the columns, of the entrywise product of the two takes from
  the first table and that of the two takes from the second, changed to the narrow float format (the identity on
  extended reals).
-/
import proofs.«414152_j2310692405394_2_alg».proof.Proof.Gen.KernelIdeal.Frame
import Idealize.ShloMosaic.Lib.StableHlo.Run
import proofs.«414152_j2310692405394_2_alg».proof.Proof.LibTypedRef
import Idealize.ShloMosaic.PureOps.Ideal

set_option maxRecDepth 16384

noncomputable section

namespace Cert.KernelIdeal.HostFeatures

open Idealize.ShloMosaic Idealize.ShloMosaic.TcCoe Idealize.SL.Sem Idealize.ShloMosaic.StableHlo
open Cert.KernelIdeal

variable {F : FTy → Type} [FloatOps F] [Cert.KernelIdeal.Facts]
open Cert.KernelIdeal.Facts₀ Cert.KernelIdeal.Facts

/-- Row a of the edge array as a vector of 500000 row numbers (a = 0: sources, a = 1: destinations). -/
def srcRow (edge : IVec S2x500000 32) : IVec S500000 32 :=
  shapeCast S500000 (extractStridedSlice S1x500000 ![0, 0] edge slices_S2x500000_S1x500000_0_0) shapeCasts_S1x500000_S500000

@[inherit_doc srcRow]
def dstRow (edge : IVec S2x500000 32) : IVec S500000 32 :=
  shapeCast S500000 (extractStridedSlice S1x500000 ![1, 0] edge slices_S2x500000_S1x500000_1_0) shapeCasts_S1x500000_S500000

/-- A row-number vector padded with zeros to the grid's 503808 rows. -/
def padded (idx : IVec S500000 32) : IVec S503808 32 :=
  pad S503808 ![0] ![3808] ![0] idx (id (constantI S_ 32 0#32)) pads_S500000_S503808_038080 h_S_

/-- The wrapped row numbers, as the column of start indices the gather reads. -/
def wrappedCol (idx : IVec S503808 32) : IVec S503808x1 32 :=
  broadcastInDim S503808x1 ![0] bcast_S503808_S503808x1_0
    (select (cmpi .slt idx (broadcastInDim S503808 ![] bcast_S_S503808 (constantI S_ 32 0#32)))
      (addi idx (broadcastInDim S503808 ![] bcast_S_S503808 (constantI S_ 32 100000#32))) idx)

/-- Which positions name a row of the table: the wrapped number in [0, 99999]. -/
def inTable (idx : IVec S503808 32) : IVec S503808 1 :=
  Host.reduce IntOp.andi
    (andi (cmpi .sge (wrappedCol idx) (broadcastInDim S503808x1 ![] bcast_S_S503808x1 (constantI S_ 32 0#32)))
      (cmpi .sle (wrappedCol idx)
        (broadcastInDim S503808x1 ![0, 1] bcast_S1x1_S503808x1_0_1
          (broadcastInDim S1x1 ![1] bcast_S1_S1x1_1 (constantI S1 32 99999#32)))))
    (constantI S_ 1 1#1) reducesTo_S503808x1_S503808_d1 h_S_

/-- The "fill" take of rows of a node table at a padded row-number vector. -/
def takeFill (tbl : FVec F S100000x128 .f32) (idx : IVec S503808 32) : FVec F S503808x128 .f32 :=
  select (broadcastInDim S503808x128 ![0] bcast_S503808_S503808x128_0 (inTable idx))
    (Host.gather gather_S100000x128_S503808x1_S503808x128_1_0_n_n_0_1_1128 tbl (wrappedCol idx))
    (broadcastInDim S503808x128 ![] bcast_S_S503808x128 (constant S_ .f32 0x7FC00000#32))

/-- The feature array the region finds in its first window. -/
def features (z z2 : FVec F S100000x128 .f32) (edge : IVec S2x500000 32) : FVec F S503808x256 .bf16 :=
  truncf .bf16
    (concatenate S503808x256 1
      [⟨S503808x128, mulf (takeFill z (padded (srcRow edge))) (takeFill z (padded (dstRow edge)))⟩,
       ⟨S503808x128, mulf (takeFill z2 (padded (srcRow edge))) (takeFill z2 (padded (dstRow edge)))⟩]
      concatenates_S503808x128_S503808x128_S503808x256_d1)
    bitsLt_bf16_f32

variable (m : (ℓ : Loc nD τ sig) → Buf (Elt F) ℓ)

/-- The entrywise product of the two takes from a table. -/
def endpointProduct (tbl : FVec F S100000x128 .f32) (edge : IVec S2x500000 32) : FVec F S503808x128 .f32 :=
  mulf (takeFill tbl (padded (srcRow edge))) (takeFill tbl (padded (dstRow edge)))

set_option maxRecDepth 1000000 in
set_option maxHeartbeats 40000000 in
/-- The product of the takes from the first table, as the region finds it. -/
theorem V_product1 (c : Dev nD) :
    (Gen.V m c main_v10 : FVec F S503808x128 .f32)
      = endpointProduct (m ((c : Thread nD τ).loc main_arg0)) (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [Cert.LibTypedRef.ofBuf_toBuf]
  rfl

set_option maxRecDepth 1000000 in
set_option maxHeartbeats 40000000 in
/-- The product of the takes from the second table, as the region finds it. -/
theorem V_product2 (c : Dev nD) :
    (Gen.V m c main_v11 : FVec F S503808x128 .f32)
      = endpointProduct (m ((c : Thread nD τ).loc main_arg1)) (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [Cert.LibTypedRef.ofBuf_toBuf]
  rfl

set_option maxHeartbeats 40000000 in
/-- The first window's array at the region's entry is the feature array of the argument arrays. -/
theorem V_features (c : Dev nD) :
    (Gen.V m c main_v13 : FVec F S503808x256 .bf16)
      = features (m ((c : Thread nD τ).loc main_arg0)) (m ((c : Thread nD τ).loc main_arg1)) (m ((c : Thread nD τ).loc main_arg2)) := by
  have h1 := V_product1 m c
  have h2 := V_product2 m c
  dsimp only [Gen.V, Gen.V0] at h1 h2 ⊢
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append] at h1 h2 ⊢
  unfold features
  after_results_simp
  refine congrArg (fun x => truncf .bf16 x bitsLt_bf16_f32)
    (congrArg₂ (fun a b => concatenate S503808x256 1 [⟨S503808x128, a⟩, ⟨S503808x128, b⟩]
      concatenates_S503808x128_S503808x128_S503808x256_d1) ?_ ?_)
  · refine Eq.trans ?_ h1
    after_results_simp
  · refine Eq.trans ?_ h2
    after_results_simp

end Cert.KernelIdeal.HostFeatures

end
-- ==== Proof.LibRowTake.lean ====
/-
  Taking rows of a table, read at an index.

  Indexing a two-axis table with a vector of row numbers is a gather whose start indices are an n x 1 column,
  whose first operand axis is collapsed and start-indexed, whose second operand axis is carried whole as the
  result's second axis, with no batching axes. The result at (r, k) is the table at (row, k), where row is the
  start index of position r read as a signed integer and clamped into the table. Nothing here depends on a
  program: the table's two extents and the number of rows taken are variables.
-/
import Idealize.ShloMosaic.PureOps.ShapeOps
import Idealize.ShloMosaic.Lib.ValueIdx

noncomputable section

namespace Cert.LibRowTake

open Idealize.ShloMosaic Idealize.ShloMosaic.ValueIdx

variable {α : Type}

/-- The dimension numbers of a row take from an N x D table at n positions; their conditions are decided on a
    program's literal shapes. -/
abbrev rowTake (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The row a start index names: the word read signed, clamped into the table. -/
abbrev clampRow (N : Nat) {w : Nat} (e : BitVec w) : Nat := min e.toInt.toNat (N - 1)

theorem clampRow_lt {N w : Nat} (hN : 0 < N) (e : BitVec w) : clampRow N e < N := by
  unfold clampRow; omega

/-- The row take at (r, k) is the table at (the clamped start index of position r, k). -/
theorem rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (k : Fin D) :
    Host.gather (rowTake N D n wf) x idx (ix2 r k)
      = x (ix2 ⟨clampRow N (idx (ix2 r 0)), clampRow_lt hN _⟩ k) := by
  unfold Host.gather
  congr 1
  funext a
  refine Fin.ext ?_
  match a with
  | ⟨0, _⟩ =>
    show (rowTake N D n wf).start (ix2 r k) idx 0 + (rowTake N D n wf).batchCoord (ix2 r k) 0
        + (rowTake N D n wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N D n wf).startIndexMap from List.mem_singleton.mpr rfl)]
    have hsi : (rowTake N D n wf).siIdx (ix2 r k) ⟨List.idxOf (0 : Fin 2) (rowTake N D n wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowTake N D n wf).start (ix2 r k) idx 1 + (rowTake N D n wf).batchCoord (ix2 r k) 1
        + (rowTake N D n wf).offCoord (ix2 r k) 1 = k.val
    rw [GatherDims.batchCoord_eq_zero _ _ _ List.not_mem_nil]
    unfold GatherDims.start
    rw [dif_neg (fun h : (1 : Fin 2) ∈ (rowTake N D n wf).startIndexMap =>
      Nat.one_ne_zero (congrArg Fin.val (List.mem_singleton.mp h)))]
    simp only [Nat.add_zero, Nat.zero_add]
    rfl

end Cert.LibRowTake

end
-- ==== Proof.Rows.lean ====
/-
  Feature rows.

  An edge entry e names a row of a 100000-row node table the way an index does: a negative e counts from the back,
  so the row number is e + 100000 when e < 0 and e otherwise ("wrapping"); the gather then clamps the wrapped
  number into the table. For e in [-100000, 100000) the wrapped number already lies in [0, 99999], which is what
  the kernel's "fill" take tests before it keeps the gathered row.
  The feature row of edge r has 256 entries: entry k < 128 is the product of entry k of the two endpoint rows of
  the first table, entry k >= 128 the product of entry k - 128 of the two endpoint rows of the second.
-/
import Idealize.ShloMosaic.PureOps.Ideal
import Idealize.ShloMosaic.PureOps.Reduce
import Idealize.ShloMosaic.Lib.ReduceAll
import Idealize.ShloMosaic.Lib.ValueIdx
import proofs.«414152_j2310692405394_2_alg».proof.Proof.LibRowTake

noncomputable section

namespace Cert.EdgeDecoder

open Idealize.ShloMosaic Idealize.ShloMosaic.ValueIdx Cert.LibRowTake

/-- The row number an entry names before clamping: 100000 is added to a negative entry. -/
def wrapWord (e : BitVec 32) : BitVec 32 :=
  Scalar.select (IntOp.cmpi .slt e 0#32) (IntOp.addi e 100000#32) e

/-- An entry in [-100000, 100000) wraps into [0, 99999]. -/
theorem wrapWord_range {e : BitVec 32} (lo : -100000 ≤ e.toInt) (hi : e.toInt < 100000) :
    0 ≤ (wrapWord e).toInt ∧ (wrapWord e).toInt ≤ 99999 := by
  unfold wrapWord Scalar.select
  by_cases h : IntOp.cmpi .slt e 0#32 = 1
  · rw [if_pos h]
    have hneg : e.toInt < 0 := by have := IntOp.cmpi_slt.1 h; simpa using this
    have hadd : (IntOp.addi e 100000#32).toInt = e.toInt + 100000 := by
      unfold IntOp.addi
      rw [BitVec.toInt_add]
      have : (100000#32 : BitVec 32).toInt = 100000 := by decide
      rw [this]
      exact Int.bmod_eq_of_le (by omega) (by omega)
    rw [hadd]; omega
  · rw [if_neg h]
    have hnn : ¬ e.toInt < 0 := fun hlt => h (IntOp.cmpi_slt.2 (by simpa using hlt))
    omega

/-- The row of the table an entry names: the wrapped number, read signed, clamped into the table. -/
def nodeRow (e : BitVec 32) : Fin 100000 :=
  ⟨clampRow 100000 (wrapWord e), clampRow_lt (by decide) _⟩

/-- The feature row of edge r. -/
def featureRow (z z2 : (⟨2, ![100000, 128]⟩ : Shape).Idx → EReal) (edge : IVec ⟨2, ![2, 500000]⟩ 32) (r : Fin 500000) :
    Fin 256 → EReal := fun k =>
  if h : k.val < 128 then
    z (ix2 (nodeRow (edge (ix2 0 r))) ⟨k.val, h⟩) * z (ix2 (nodeRow (edge (ix2 1 r))) ⟨k.val, h⟩)
  else
    z2 (ix2 (nodeRow (edge (ix2 0 r))) ⟨k.val - 128, by have := k.isLt; omega⟩)
      * z2 (ix2 (nodeRow (edge (ix2 1 r))) ⟨k.val - 128, by have := k.isLt; omega⟩)

/-- A fold by "and" from 1 over bits that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    have : IntOp.andi 1#1 1#1 = 1#1 := by decide
    rw [this]
    exact foldl_andi_one f l fun n hn => h n (List.mem_cons_of_mem _ hn)

/-- A reduction by "and" from the constant 1 of an array of bits that are all 1 is 1 everywhere. -/
theorem reduce_andi_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_one x _ fun n _ => hx n

end Cert.EdgeDecoder

end
-- ==== Proof.KernelRows.lean ====
/-
  The kernel's feature array, row by row.

  The padded row-number vectors hold the edge array's entries below position 500000 and zeros from there on. Where
  every edge entry lies in [-100000, 100000) every padded entry wraps into the table (zero wraps to zero), so the
  "fill" take's test succeeds at every position and the take keeps the gathered row: the table's row at the
  wrapped number clamped into the table. Hence, for r below 500000, row r of the feature array is the feature row
  of edge r.
-/
import proofs.«414152_j2310692405394_2_alg».proof.Proof.HostFeatures
import proofs.«414152_j2310692405394_2_alg».proof.Proof.Rows
import proofs.«414152_j2310692405394_2_alg».proof.Proof.LibRowTake
import Idealize.ShloMosaic.Lib.KernelVsHost
import Idealize.ShloMosaic.Lib.Pipeline.Value
import Idealize.ShloMosaic.Lib.ValueIdx

set_option maxRecDepth 1000000

noncomputable section

namespace Cert.KernelIdeal.HostFeatures

open Idealize.ShloMosaic Idealize.ShloMosaic.ValueIdx Idealize.ShloMosaic.Pipeline
open Cert.KernelIdeal Cert.EdgeDecoder Cert.LibRowTake

variable [Cert.KernelIdeal.Facts]
open Cert.KernelIdeal.Facts₀ Cert.KernelIdeal.Facts

/-- An entry lies in the range of row numbers a 100000-row table admits, counting from either end. -/
abbrev Admitted (e : BitVec 32) : Prop := -100000 ≤ e.toInt ∧ e.toInt < 100000

/-- Entry r of the source row-number vector is the edge array's entry (0, r). -/
theorem srcRow_apply (edge : IVec S2x500000 32) (r : Fin 500000) : srcRow edge (ix1 r) = edge (ix2 (0 : Fin 2) r) := by
  unfold srcRow
  refine (shapeCast_apply _ shapeCasts_S1x500000_S500000 (ix1 r) (ix2 (0 : Fin 1) r) ?_).trans ?_
  · rewrite [Shape.rowMajor_val_two, Shape.rowMajor_val_one]; show 0 * 500000 + r.val = r.val; omega
  · exact extractStridedSlice_apply ![0, 0] edge slices_S2x500000_S1x500000_0_0 (ix2 (0 : Fin 1) r) (ix2 (0 : Fin 2) r)
      (fun a => match a with
        | ⟨0, _⟩ => by show (0 : Nat) = 0 + 0; rfl
        | ⟨1, _⟩ => by show r.val = 0 + r.val; omega)

/-- Entry r of the destination row-number vector is the edge array's entry (1, r). -/
theorem dstRow_apply (edge : IVec S2x500000 32) (r : Fin 500000) : dstRow edge (ix1 r) = edge (ix2 (1 : Fin 2) r) := by
  unfold dstRow
  refine (shapeCast_apply _ shapeCasts_S1x500000_S500000 (ix1 r) (ix2 (0 : Fin 1) r) ?_).trans ?_
  · rewrite [Shape.rowMajor_val_two, Shape.rowMajor_val_one]; show 0 * 500000 + r.val = r.val; omega
  · exact extractStridedSlice_apply ![1, 0] edge slices_S2x500000_S1x500000_1_0 (ix2 (0 : Fin 1) r) (ix2 (1 : Fin 2) r)
      (fun a => match a with
        | ⟨0, _⟩ => by show (1 : Nat) = 1 + 0; rfl
        | ⟨1, _⟩ => by show r.val = 0 + r.val; omega)

/-- Below 500000 the padded vector is the vector. -/
theorem padded_apply (idx : IVec S500000 32) (q : Fin 503808) (hq : q.val < 500000) :
    padded idx (ix1 q) = idx (ix1 (⟨q.val, hq⟩ : Fin 500000)) := by
  unfold padded
  refine pad_apply_of_inside ![0] ![3808] ![0] idx _ pads_S500000_S503808_038080 h_S_ (ix1 q) (ix1 ⟨q.val, hq⟩) ?_
  intro a
  obtain rfl : a = 0 := Subsingleton.elim _ _
  show q.val = 0 + q.val * (0 + 1)
  omega

/-- From 500000 on the padded vector is zero. -/
theorem padded_apply_pad (idx : IVec S500000 32) (q : Fin 503808) (hq : 500000 ≤ q.val) :
    padded idx (ix1 q) = 0#32 := by
  unfold padded
  refine (pad_apply_of_not_inside ![0] ![3808] ![0] idx _ pads_S500000_S503808_038080 h_S_ (ix1 q) 0 ?_).trans rfl
  rintro ⟨-, -, h3⟩
  have : (q.val - 0) / (0 + 1) < 500000 := h3
  omega

/-- Every position of a padded vector of admitted entries wraps into the table. -/
theorem padded_wraps (idx : IVec S500000 32) (hidx : ∀ r : Fin 500000, Admitted (idx (ix1 r))) (q : Fin 503808) :
    0 ≤ (wrapWord (padded idx (ix1 q))).toInt ∧ (wrapWord (padded idx (ix1 q))).toInt ≤ 99999 := by
  by_cases hq : q.val < 500000
  · rw [padded_apply idx q hq]
    exact wrapWord_range (hidx _).1 (hidx _).2
  · rw [padded_apply_pad idx q (Nat.le_of_not_lt hq)]
    exact wrapWord_range (by decide) (by decide)

/-- The start index of position q is the wrapped entry. -/
theorem wrappedCol_apply (idx : IVec S503808 32) (q : Fin 503808) :
    wrappedCol idx (ix2 q (0 : Fin 1)) = wrapWord (idx (ix1 q)) := by
  unfold wrappedCol
  refine (broadcastInDim_apply ![0] bcast_S503808_S503808x1_0 _ (ix2 q (0 : Fin 1)) (ix1 q) ?_).trans rfl
  intro a
  obtain rfl : a = 0 := Subsingleton.elim _ _
  show q.val = if (503808 : Nat) = 1 then 0 else q.val
  rw [if_neg (by decide)]

/-- Where every entry wraps into the table, the test succeeds at every position. -/
theorem inTable_one (idx : IVec S503808 32)
    (hall : ∀ q : Fin 503808, 0 ≤ (wrapWord (idx (ix1 q))).toInt ∧ (wrapWord (idx (ix1 q))).toInt ≤ 99999)
    (j : S503808.Idx) : inTable idx j = 1#1 := by
  unfold inTable
  refine reduce_andi_one _ _ _ _ (fun _ => rfl) (fun i => ?_) j
  obtain ⟨q, z, rfl⟩ : ∃ (q : Fin 503808) (z : Fin 1), i = ix2 q z := ⟨i 0, i 1, eq_ix2 i⟩
  obtain rfl : z = 0 := Subsingleton.elim _ _
  show IntOp.andi (IntOp.cmpi .sge (wrappedCol idx (ix2 q 0)) 0#32) (IntOp.cmpi .sle (wrappedCol idx (ix2 q 0)) 99999#32) = 1#1
  rw [wrappedCol_apply]
  refine IntOp.andi_eq_one.2 ⟨IntOp.cmpi_sge.2 ?_, IntOp.cmpi_sle.2 ?_⟩
  · have : (0#32 : BitVec 32).toInt = 0 := by decide
    rw [this]; exact (hall q).1
  · have : (99999#32 : BitVec 32).toInt = 99999 := by decide
    rw [this]; exact (hall q).2

/-- The printed gather is the row take. -/
theorem gather_is_rowTake :
    gather_S100000x128_S503808x1_S503808x128_1_0_n_n_0_1_1128
      = rowTake 100000 128 503808 gather_S100000x128_S503808x1_S503808x128_1_0_n_n_0_1_1128_wf := rfl

/-- Where every entry wraps into the table, the "fill" take at (q, k) is the table's row the entry names, at k. -/
theorem takeFill_apply (tbl : FVec Ideal S100000x128 .f32) (idx : IVec S503808 32)
    (hall : ∀ q : Fin 503808, 0 ≤ (wrapWord (idx (ix1 q))).toInt ∧ (wrapWord (idx (ix1 q))).toInt ≤ 99999)
    (q : Fin 503808) (k : Fin 128) :
    takeFill (F := Ideal) tbl idx (ix2 q k) = tbl (ix2 (nodeRow (idx (ix1 q))) k) := by
  unfold takeFill
  rw [select_apply]
  have hm : broadcastInDim S503808x128 ![0] bcast_S503808_S503808x128_0 (inTable idx) (ix2 q k) = 1#1 := by
    refine (broadcastInDim_apply ![0] bcast_S503808_S503808x128_0 (inTable idx) (ix2 q k) (ix1 q) ?_).trans
      (inTable_one idx hall (ix1 q))
    intro a
    obtain rfl : a = 0 := Subsingleton.elim _ _
    show q.val = if (503808 : Nat) = 1 then 0 else q.val
    rw [if_neg (by decide)]
  rw [hm]
  show Host.gather gather_S100000x128_S503808x1_S503808x128_1_0_n_n_0_1_1128 tbl (wrappedCol idx) (ix2 q k) = _
  rw [gather_is_rowTake, rowTake_apply (by decide), wrappedCol_apply]
  rfl

/-- For r below 500000, row r of the feature array is the feature row of edge r. -/
theorem features_row (z z2 : FVec Ideal S100000x128 .f32) (edge : IVec S2x500000 32)
    (hedge : ∀ i : S2x500000.Idx, Admitted (edge i)) (q : Fin 503808) (hq : q.val < 500000) (k : Fin 256) :
    features (F := Ideal) z z2 edge (ix2 q k) = featureRow z z2 edge ⟨q.val, hq⟩ k := by
  have hs : ∀ r : Fin 500000, Admitted (srcRow edge (ix1 r)) := fun r => by rw [srcRow_apply]; exact hedge _
  have hd : ∀ r : Fin 500000, Admitted (dstRow edge (ix1 r)) := fun r => by rw [dstRow_apply]; exact hedge _
  have es : padded (srcRow edge) (ix1 q) = edge (ix2 (0 : Fin 2) ⟨q.val, hq⟩) := by rw [padded_apply _ q hq, srcRow_apply]
  have ed : padded (dstRow edge) (ix1 q) = edge (ix2 (1 : Fin 2) ⟨q.val, hq⟩) := by rw [padded_apply _ q hq, dstRow_apply]
  unfold features
  rw [truncf_apply]
  unfold featureRow
  by_cases hk : k.val < 128
  · rw [dif_pos hk]
    refine (concatenate_pair_apply_left (t := S503808x256) (s₁ := S503808x128) (s₂ := S503808x128) (1 : Fin 2) _ _
      concatenates_S503808x128_S503808x128_S503808x256_d1 (ix2 q k) rfl
      (ix2 q (⟨k.val, hk⟩ : Fin 128)) ?_).trans ?_
    · intro b
      match b with
      | ⟨0, _⟩ => rfl
      | ⟨1, _⟩ => rfl
    · rw [mulf_apply, takeFill_apply z _ (padded_wraps _ hs) q _, takeFill_apply z _ (padded_wraps _ hd) q _, es, ed]
  · rw [dif_neg hk]
    have hk2 : k.val - 128 < 128 := by have := k.isLt; omega
    refine (concatenate_pair_apply_right (t := S503808x256) (s₁ := S503808x128) (s₂ := S503808x128) (1 : Fin 2) _ _
      concatenates_S503808x128_S503808x128_S503808x256_d1 (ix2 q k) rfl rfl
      (ix2 q (⟨k.val - 128, hk2⟩ : Fin 128)) ?_ ?_).trans ?_
    · intro b hb
      match b with
      | ⟨0, _⟩ => rfl
      | ⟨1, _⟩ => exact absurd rfl hb
    · show k.val - 128 + 128 = k.val
      omega
    · rw [mulf_apply, takeFill_apply z2 _ (padded_wraps _ hs) q _, takeFill_apply z2 _ (padded_wraps _ hd) q _, es, ed]

end Cert.KernelIdeal.HostFeatures

end
-- ==== Proof.Range.lean ====
/-
  What the precondition says of the edge array.

  The precondition is a conjunction of whole-array tests, each a reduction by "and" of a comparison array, joined
  by "and" from the left. Its last two conjuncts test every entry e of the edge array: e >= -100000 and
  e < 100000, both as signed 32-bit comparisons. So where the precondition holds, every entry, read as a signed
  integer, lies in [-100000, 100000): exactly the entries that name a row of a 100000-row table, counting from the
  front (0 ... 99999) or from the back (-100000 ... -1). The finiteness conjuncts before them are not opened.
-/
import proofs.«414152_j2310692405394_2_alg».proof.Pre_finite_inputs
import Idealize.ShloMosaic.Lib.ReduceAll
import Idealize.ShloMosaic.Lib.ValueIdx

noncomputable section

namespace Cert.Pre_finite_inputs.EdgeRange

open Idealize.ShloMosaic Idealize.ShloMosaic.ValueIdx Cert.Pre_finite_inputs

variable [Cert.Pre_finite_inputs.Facts]

/-- The rank-0 shape has one index. -/
instance : Subsingleton S_.Idx := ⟨fun a b => funext fun d => d.elim0⟩

/-- The word of the lower bound, read signed. -/
theorem lower_word : (4294867296#32 : BitVec 32).toInt = -100000 := by decide

/-- The word of the upper bound, read signed. -/
theorem upper_word : (100000#32 : BitVec 32).toInt = 100000 := by decide

/-- Where the precondition holds, every entry of the edge array lies in [-100000, 100000). -/
theorem edge_range {F : FTy → Type} [FloatOps F] (a0 a1 : FVec F S100000x128 .f32) (e : IVec S2x500000 32)
    (a3 : FVec F S256x256 .f32) (a4 : FVec F S256 .f32) (a5 : FVec F S256x1 .f32) (a6 : FVec F S1 .f32)
    (h : fn (F := F) a0 a1 e a3 a4 a5 a6 = fun _ => 1#1) (i : S2x500000.Idx) :
    -100000 ≤ (e i).toInt ∧ (e i).toInt < 100000 := by
  have h0 := congrFun h ix0
  dsimp only [fn, fn_part1, fn_part2] at h0
  obtain ⟨h1, hup⟩ := IntOp.andi_eq_one.1 h0
  obtain ⟨-, hlo⟩ := IntOp.andi_eq_one.1 h1
  have lo := Host.reduce_andi_all _ _ _ _ _ hlo i
  have up := Host.reduce_andi_all _ _ _ _ _ hup i
  have lo' := IntOp.cmpi_sge.1 lo
  have up' := IntOp.cmpi_slt.1 up
  refine ⟨?_, ?_⟩
  · rw [← lower_word]; exact lo'
  · rw [← upper_word]; exact up'

end Cert.Pre_finite_inputs.EdgeRange

end
-- ==== Proof.KernelRun.lean ====
/-
  The kernel's run, read.

  After the region one host operation keeps rows 0 ... 499999 of the padded output column. Where the precondition
  holds those rows are the decoder's answers for the feature rows of the edges: the feature array's rows below
  500000 are the edges' feature rows, the two bias windows hold the bias vectors laid out as one row, and the two
  weight windows hold the weight matrices as launched.
-/
import proofs.«414152_j2310692405394_2_alg».proof.Defs
import proofs.«414152_j2310692405394_2_alg».proof.Proof.KernelValue
import proofs.«414152_j2310692405394_2_alg».proof.Proof.KernelRows
import proofs.«414152_j2310692405394_2_alg».proof.Proof.Range
import proofs.«414152_j2310692405394_2_alg».proof.Proof.Gen.Pre_finite_inputs
import Idealize.ShloMosaic.Lib.Pipeline.Value
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.EdgeDecoder Cert.KernelIdeal.ArrayValue Cert.KernelIdeal.HostFeatures

variable (m : (ℓ : Loc nD τ sig) → Buf (Elt Ideal) ℓ) (ρ : Dev nD → PrngReg)

/-- The kernel's result where the precondition holds: row r is the decoder's answer for the feature row of edge r. -/
def answers (c : Dev nD) : S500000x1.Idx → EReal := fun i =>
  decodeRow (m ((c : Thread nD τ).loc main_arg3)) (m ((c : Thread nD τ).loc main_arg4)) (m ((c : Thread nD τ).loc main_arg5))
    (m ((c : Thread nD τ).loc main_arg6))
    (featureRow (m ((c : Thread nD τ).loc main_arg0)) (m ((c : Thread nD τ).loc main_arg1)) (m ((c : Thread nD τ).loc main_arg2)) (i 0))

set_option maxRecDepth 1000000 in
set_option maxHeartbeats 4000000 in
/-- The first bias window holds the first bias vector as one row. -/
theorem V_bias1 (c : Dev nD) :
    (Gen.V m c main_v14 : S1x256.Idx → EReal)
      = shapeCast S1x256 (m ((c : Thread nD τ).loc main_arg4)) Gen.shapeCasts_S256_S1x256 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

set_option maxRecDepth 1000000 in
set_option maxHeartbeats 4000000 in
/-- The second bias window holds the second bias vector as one row. -/
theorem V_bias2 (c : Dev nD) :
    (Gen.V m c main_v15 : S1x1.Idx → EReal)
      = shapeCast S1x1 (m ((c : Thread nD τ).loc main_arg6)) Gen.shapeCasts_S1_S1x1 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- Entry j of the bias row. -/
theorem bias1_entry (c : Dev nD) (j : Fin 256) :
    Gen.V m c main_v14 (ix2 (0 : Fin 1) j) = m ((c : Thread nD τ).loc main_arg4) (ix1 j) := by
  rw [V_bias1]
  refine shapeCast_apply _ Gen.shapeCasts_S256_S1x256 (ix2 (0 : Fin 1) j) (ix1 j) ?_
  rewrite [Shape.rowMajor_val_two, Shape.rowMajor_val_one]
  show j.val = 0 * 256 + j.val
  omega

/-- The one entry of the output bias row. -/
theorem bias2_entry (c : Dev nD) :
    Gen.V m c main_v15 (ix2 (0 : Fin 1) (0 : Fin 1)) = m ((c : Thread nD τ).loc main_arg6) (ix1 (0 : Fin 1)) := by
  rw [V_bias2]
  refine shapeCast_apply _ Gen.shapeCasts_S1_S1x1 (ix2 (0 : Fin 1) (0 : Fin 1)) (ix1 (0 : Fin 1)) ?_
  rewrite [Shape.rowMajor_val_two, Shape.rowMajor_val_one]
  rfl

set_option maxRecDepth 1000000 in
/-- The result buffer after the host operation that follows the region: the first 500000 rows of the padded answers. -/
theorem result_slice (c : Dev nD) :
    Pipeline.afterTail₀ cfgs (Gen.dats m) 0 (Gen.V0 m) [Gen.hostOps1] c main_v17
      = extractStridedSlice S500000x1 ![0, 0] (paddedAnswers m c) Gen.slices_S503808x1_S500000x1_0_0 := by
  unfold Pipeline.afterTail₀
  simp only [Gen.hostOps1, List.flatten_cons, List.flatten_nil, List.append_nil]
  after_results
  have h : Pipeline.withArrays (cfgs 0).spec c (Gen.V0 m c) (fun w => (Gen.dats m 0 c).arrAt w (cfgs 0).N)
      (Proc.devRef .tc main_v16) = paddedAnswers m c :=
    (Pipeline.withArrays_arr (cfgs 0).spec Gen.launch0.win.arr_inj c (Gen.V0 m c)
      (fun w => (Gen.dats m 0 c).arrAt w (cfgs 0).N) 5).trans (padded_final m c)
  exact congrArg
    (fun X : S503808x1.Idx → EReal => extractStridedSlice S500000x1 ![0, 0] X Gen.slices_S503808x1_S500000x1_0_0) h

/-- Where every edge entry is admitted, the result buffer holds the answers. -/
theorem result_answers (c : Dev nD)
    (hedge : ∀ i : S2x500000.Idx, Admitted (m ((c : Thread nD τ).loc main_arg2) i)) :
    Pipeline.afterTail₀ cfgs (Gen.dats m) 0 (Gen.V0 m) [Gen.hostOps1] c main_v17 = answers m c := by
  rw [result_slice]
  funext i
  obtain ⟨r, q, rfl⟩ : ∃ (r : Fin 500000) (q : Fin 1), i = ix2 r q := ⟨i 0, i 1, eq_ix2 i⟩
  obtain rfl : q = 0 := Subsingleton.elim _ _
  refine (extractStridedSlice_apply ![0, 0] (paddedAnswers m c) Gen.slices_S503808x1_S500000x1_0_0 (ix2 r (0 : Fin 1))
    (ix2 (⟨r.val, by have := r.isLt; omega⟩ : Fin 503808) (0 : Fin 1)) (fun a => match a with
      | ⟨0, _⟩ => by show r.val = 0 + r.val; omega
      | ⟨1, _⟩ => by show (0 : Nat) = 0 + 0; rfl)).trans ?_
  have hb1 : (fun j : S256.Idx => Gen.V m c main_v14 (ix2 (0 : Fin 1) (j 0))) = m ((c : Thread nD τ).loc main_arg4) :=
    funext fun j => by
      obtain ⟨j', rfl⟩ : ∃ j' : Fin 256, j = ix1 j' := ⟨j 0, eq_ix1 j⟩
      exact bias1_entry m c j'
  have hb2 : (fun _ : S1.Idx => Gen.V m c main_v15 (ix2 (0 : Fin 1) (0 : Fin 1))) = m ((c : Thread nD τ).loc main_arg6) :=
    funext fun a => by
      obtain ⟨q, rfl⟩ : ∃ q : Fin 1, a = ix1 q := ⟨a 0, eq_ix1 a⟩
      obtain rfl : q = 0 := Subsingleton.elim _ _
      exact bias2_entry m c
  have hx : (fun k : Fin 256 => Gen.V m c main_v13 (ix2 (⟨r.val, by have := r.isLt; omega⟩ : Fin 503808) k))
      = featureRow (m ((c : Thread nD τ).loc main_arg0)) (m ((c : Thread nD τ).loc main_arg1))
          (m ((c : Thread nD τ).loc main_arg2)) r :=
    funext fun k => by
      rw [V_features]
      exact features_row _ _ _ hedge ⟨r.val, by have := r.isLt; omega⟩ r.isLt k
  show decodeRow (Gen.V m c main_arg3) (fun j : S256.Idx => Gen.V m c main_v14 (ix2 (0 : Fin 1) (j 0))) (Gen.V m c main_arg5)
      (fun _ : S1.Idx => Gen.V m c main_v15 (ix2 (0 : Fin 1) (0 : Fin 1)))
      (fun k : Fin 256 => Gen.V m c main_v13 (ix2 (⟨r.val, by have := r.isLt; omega⟩ : Fin 503808) k))
    = decodeRow (m ((c : Thread nD τ).loc main_arg3)) (m ((c : Thread nD τ).loc main_arg4)) (m ((c : Thread nD τ).loc main_arg5))
      (m ((c : Thread nD τ).loc main_arg6))
      (featureRow (m ((c : Thread nD τ).loc main_arg0)) (m ((c : Thread nD τ).loc main_arg1)) (m ((c : Thread nD τ).loc main_arg2)) r)
  rw [hb1, hb2, hx, Gen.V_main_arg3, Gen.V_main_arg5]

/-- Where the precondition holds, every edge entry is admitted. -/
theorem edge_admitted (hpre : Cert.Pre_KernelIdeal m) (c : Dev nD) (i : S2x500000.Idx) :
    Admitted (m ((c : Thread nD τ).loc main_arg2) i) :=
  Cert.Pre_finite_inputs.EdgeRange.edge_range _ _ _ _ _ _ _ (hpre c) i

/-- The kernel's run where the precondition holds: every weakly fair execution terminates with the result buffer at
    the answers and the argument arrays unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v17) = answers m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v17 (Pipeline.mem_restRefs_of main_v17 (by decide) (by decide))).trans
        (result_answers m c (edge_admitted m hpre c)),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).1 1).trans (((Gen.dats m 0 c).arrAt_in 1 rfl _).trans ((Gen.A_eq m c 1).trans (Gen.V_main_arg3 m c))),
      ((h c).2 main_arg4 (Pipeline.mem_restRefs_of main_arg4 (by decide) (by decide))).trans (Gen.W_main_arg4 m (Gen.dats m) c),
      ((h c).1 3).trans (((Gen.dats m 0 c).arrAt_in 3 rfl _).trans ((Gen.A_eq m c 3).trans (Gen.V_main_arg5 m c))),
      ((h c).2 main_arg6 (Pipeline.mem_restRefs_of main_arg6 (by decide) (by decide))).trans (Gen.W_main_arg6 m (Gen.dats m) c)⟩)
    (Gen.run_main m ρ)

end Cert.KernelIdeal.RunValue

end
-- ==== Proof.RefValue.lean ====
/-
  The reference's result, row by row.

  The reference gathers the endpoint rows of both node tables at the wrapped edge entries (the gather clamps),
  multiplies them entrywise, joins the two products along the columns into the feature rows, and applies the two
  layers and the logistic function, which it spells 1 / (1 + exp (-s)). Read at row r, its result is the decoder's
  answer for the feature row of edge r: the same sums over the same index sets as the kernel's, so the two sides
  meet in one term and no law of the extended reals is used beyond reading each operation at an index.
-/
import proofs.«414152_j2310692405394_2_alg».proof.Proof.Gen.ReferenceIdeal.Read
import proofs.«414152_j2310692405394_2_alg».proof.Proof.Rows
import proofs.«414152_j2310692405394_2_alg».proof.Proof.Decoder
import proofs.«414152_j2310692405394_2_alg».proof.Proof.LibRowTake
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Idealize.ShloMosaic.Pipeline
open Cert.ReferenceIdeal Cert.ReferenceIdeal.Read Cert.EdgeDecoder Cert.LibRowTake

variable [Cert.ReferenceIdeal.Facts]
open Cert.ReferenceIdeal.Facts₀ Cert.ReferenceIdeal.Facts

/-- Entry r of the source row-number vector is the edge array's entry (0, r). -/
theorem edge_src (edge : IVec S2x500000 32) (r : Fin 500000) :
    val_main_v1 (F := Ideal) edge (ix1 r) = edge (ix2 (0 : Fin 2) r) := by
  rw [val_main_v1_apply, val_main_v0_apply]
  exact congrArg edge (funext fun a => Fin.ext (by
    match a with
    | ⟨0, _⟩ => rfl
    | ⟨1, _⟩ => exact Nat.mod_eq_of_lt r.isLt))

/-- Entry r of the destination row-number vector is the edge array's entry (1, r). -/
theorem edge_dst (edge : IVec S2x500000 32) (r : Fin 500000) :
    val_main_v3 (F := Ideal) edge (ix1 r) = edge (ix2 (1 : Fin 2) r) := by
  rw [val_main_v3_apply, val_main_v2_apply]
  exact congrArg edge (funext fun a => Fin.ext (by
    match a with
    | ⟨0, _⟩ => rfl
    | ⟨1, _⟩ => exact Nat.mod_eq_of_lt r.isLt))

/-- The four columns of start indices hold the wrapped entries. -/
theorem start_src1 (edge : IVec S2x500000 32) (r : Fin 500000) :
    val_main_v9 (F := Ideal) edge (ix2 r (0 : Fin 1)) = wrapWord (edge (ix2 (0 : Fin 2) r)) := by
  rw [val_main_v9_apply]
  show Scalar.select (IntOp.cmpi .slt (val_main_v1 (F := Ideal) edge (ix1 r)) 0#32)
    (IntOp.addi (val_main_v1 (F := Ideal) edge (ix1 r)) 100000#32) (val_main_v1 (F := Ideal) edge (ix1 r)) = _
  rw [edge_src]; rfl

@[inherit_doc start_src1]
theorem start_dst1 (edge : IVec S2x500000 32) (r : Fin 500000) :
    val_main_v16 (F := Ideal) edge (ix2 r (0 : Fin 1)) = wrapWord (edge (ix2 (1 : Fin 2) r)) := by
  rw [val_main_v16_apply]
  show Scalar.select (IntOp.cmpi .slt (val_main_v3 (F := Ideal) edge (ix1 r)) 0#32)
    (IntOp.addi (val_main_v3 (F := Ideal) edge (ix1 r)) 100000#32) (val_main_v3 (F := Ideal) edge (ix1 r)) = _
  rw [edge_dst]; rfl

@[inherit_doc start_src1]
theorem start_src2 (edge : IVec S2x500000 32) (r : Fin 500000) :
    val_main_v24 (F := Ideal) edge (ix2 r (0 : Fin 1)) = wrapWord (edge (ix2 (0 : Fin 2) r)) := by
  rw [val_main_v24_apply]
  show Scalar.select (IntOp.cmpi .slt (val_main_v1 (F := Ideal) edge (ix1 r)) 0#32)
    (IntOp.addi (val_main_v1 (F := Ideal) edge (ix1 r)) 100000#32) (val_main_v1 (F := Ideal) edge (ix1 r)) = _
  rw [edge_src]; rfl

@[inherit_doc start_src1]
theorem start_dst2 (edge : IVec S2x500000 32) (r : Fin 500000) :
    val_main_v31 (F := Ideal) edge (ix2 r (0 : Fin 1)) = wrapWord (edge (ix2 (1 : Fin 2) r)) := by
  rw [val_main_v31_apply]
  show Scalar.select (IntOp.cmpi .slt (val_main_v3 (F := Ideal) edge (ix1 r)) 0#32)
    (IntOp.addi (val_main_v3 (F := Ideal) edge (ix1 r)) 100000#32) (val_main_v3 (F := Ideal) edge (ix1 r)) = _
  rw [edge_dst]; rfl

/-- The printed gather is the row take. -/
theorem gather_is_rowTake :
    gather_S100000x128_S500000x1_S500000x128_1_0_n_n_0_1_1128
      = rowTake 100000 128 500000 gather_S100000x128_S500000x1_S500000x128_1_0_n_n_0_1_1128_wf := rfl

/-- Each gather at (r, k) is the table's row the entry names, at k. -/
theorem take_src1 (z : FVec Ideal S100000x128 .f32) (edge : IVec S2x500000 32) (r : Fin 500000) (k : Fin 128) :
    val_main_v10 (F := Ideal) z edge (ix2 r k) = z (ix2 (nodeRow (edge (ix2 (0 : Fin 2) r))) k) := by
  unfold val_main_v10
  rw [gather_is_rowTake, rowTake_apply (by decide), start_src1]
  rfl

@[inherit_doc take_src1]
theorem take_dst1 (z : FVec Ideal S100000x128 .f32) (edge : IVec S2x500000 32) (r : Fin 500000) (k : Fin 128) :
    val_main_v17 (F := Ideal) z edge (ix2 r k) = z (ix2 (nodeRow (edge (ix2 (1 : Fin 2) r))) k) := by
  unfold val_main_v17
  rw [gather_is_rowTake, rowTake_apply (by decide), start_dst1]
  rfl

@[inherit_doc take_src1]
theorem take_src2 (z2 : FVec Ideal S100000x128 .f32) (edge : IVec S2x500000 32) (r : Fin 500000) (k : Fin 128) :
    val_main_v25 (F := Ideal) z2 edge (ix2 r k) = z2 (ix2 (nodeRow (edge (ix2 (0 : Fin 2) r))) k) := by
  unfold val_main_v25
  rw [gather_is_rowTake, rowTake_apply (by decide), start_src2]
  rfl

@[inherit_doc take_src1]
theorem take_dst2 (z2 : FVec Ideal S100000x128 .f32) (edge : IVec S2x500000 32) (r : Fin 500000) (k : Fin 128) :
    val_main_v32 (F := Ideal) z2 edge (ix2 r k) = z2 (ix2 (nodeRow (edge (ix2 (1 : Fin 2) r))) k) := by
  unfold val_main_v32
  rw [gather_is_rowTake, rowTake_apply (by decide), start_dst2]
  rfl

/-- Row r of the reference's feature array is the feature row of edge r. -/
theorem features_row (z z2 : FVec Ideal S100000x128 .f32) (edge : IVec S2x500000 32) (r : Fin 500000) (k : Fin 256) :
    val_main_v34 (F := Ideal) z z2 edge (ix2 r k) = featureRow z z2 edge r k := by
  unfold val_main_v34 featureRow
  by_cases hk : k.val < 128
  · rw [dif_pos hk]
    refine (concatenate_pair_apply_left (t := S500000x256) (s₁ := S500000x128) (s₂ := S500000x128) (1 : Fin 2) _ _
      concatenates_S500000x128_S500000x128_S500000x256_d1 (ix2 r k) rfl
      (ix2 r (⟨k.val, hk⟩ : Fin 128)) ?_).trans ?_
    · intro b
      match b with
      | ⟨0, _⟩ => rfl
      | ⟨1, _⟩ => rfl
    · rw [val_main_v18_apply, take_src1, take_dst1]; rfl
  · rw [dif_neg hk]
    have hk2 : k.val - 128 < 128 := by have := k.isLt; omega
    refine (concatenate_pair_apply_right (t := S500000x256) (s₁ := S500000x128) (s₂ := S500000x128) (1 : Fin 2) _ _
      concatenates_S500000x128_S500000x128_S500000x256_d1 (ix2 r k) rfl rfl
      (ix2 r (⟨k.val - 128, hk2⟩ : Fin 128)) ?_ ?_).trans ?_
    · intro b hb
      match b with
      | ⟨0, _⟩ => rfl
      | ⟨1, _⟩ => exact absurd rfl hb
    · show k.val - 128 + 128 = k.val
      omega
    · rw [val_main_v33_apply, take_src2, take_dst2]; rfl

/-- Hidden unit j of the reference at row r. -/
theorem hidden_row (z z2 : FVec Ideal S100000x128 .f32) (edge : IVec S2x500000 32) (W1 : FVec Ideal S256x256 .f32)
    (b1 : FVec Ideal S256 .f32) (r : Fin 500000) (j : Fin 256) :
    val_main_v39 (F := Ideal) z z2 edge W1 b1 (ix2 r j) = EdgeDecoder.hidden W1 b1 (featureRow z z2 edge r) j := by
  rw [val_main_v39_apply, val_main_v38_apply, val_main_v35_apply]
  unfold EdgeDecoder.hidden
  refine congrArg₂ max (congrArg₂ (· + ·) (Finset.sum_congr rfl fun k _ => congrArg₂ (· * ·) ?_ ?_) ?_) Ideal.ofBits_zero_f32
  · exact (congrArg (val_main_v34 (F := Ideal) z z2 edge) (funext fun a => Fin.ext (by
      match a with
      | ⟨0, _⟩ => rfl
      | ⟨1, _⟩ => rfl))).trans (features_row z z2 edge r k)
  · exact congrArg W1 (funext fun a => Fin.ext (by
      match a with
      | ⟨0, _⟩ => rfl
      | ⟨1, _⟩ => rfl))
  · rw [val_main_v37_apply, val_main_v36_apply]
    exact congrArg b1 (funext fun a => Fin.ext (by
      match a with
      | ⟨0, _⟩ => rfl))

/-- The reference's result at row r is the decoder's answer for the feature row of edge r. -/
theorem answer (z z2 : FVec Ideal S100000x128 .f32) (edge : IVec S2x500000 32) (W1 : FVec Ideal S256x256 .f32)
    (b1 : FVec Ideal S256 .f32) (W2 : FVec Ideal S256x1 .f32) (b2 : FVec Ideal S1 .f32) (r : Fin 500000) :
    val_main_v49 (F := Ideal) z z2 edge W1 b1 W2 b2 (ix2 r (0 : Fin 1))
      = decodeRow W1 b1 W2 b2 (featureRow z z2 edge r) := by
  rw [val_main_v49_apply, val_main_v47_apply, val_main_v45_apply, val_main_v44_apply, val_main_v43_apply, val_main_v40_apply]
  show Ideal.div (Ideal.ofBits .f32 0x3F800000#32) (Ideal.ofBits .f32 0x3F800000#32 + Ideal.exp (-(_ + _))) = _
  rw [one_word, logistic_spelled]
  unfold decodeRow score
  refine congrArg Ideal.logistic (congrArg₂ (· + ·) (Finset.sum_congr rfl fun j _ => congrArg₂ (· * ·) ?_ ?_) ?_)
  · exact (congrArg (val_main_v39 (F := Ideal) z z2 edge W1 b1) (funext fun a => Fin.ext (by
      match a with
      | ⟨0, _⟩ => rfl
      | ⟨1, _⟩ => rfl))).trans (hidden_row z z2 edge W1 b1 r j)
  · exact congrArg W2 (funext fun a => Fin.ext (by
      match a with
      | ⟨0, _⟩ => rfl
      | ⟨1, _⟩ => rfl))
  · rw [val_main_v42_apply, val_main_v41_apply]
    exact congrArg b2 (funext fun a => Fin.ext (by
      match a with
      | ⟨0, _⟩ => rfl))

end Cert.ReferenceIdeal.RefValue

end
-- ==== Proof.lean ====
/-
  The edge decoder kernel against its reference, over the extended reals.

  Both programs score each of 500000 edges: the feature row of an edge is the entrywise product of its two endpoint
  rows of the first node table followed by that of the second; a hidden layer of 256 units with the positive part
  and one output unit with the logistic function turn the row into the edge's answer. The kernel pads the edge
  list to 123 blocks of 4096 rows, computes the feature rows on the host, scores a block per grid point and drops
  the padding; the reference scores all rows at once.
  The precondition admits the edge entries that name a row of a 100000-row table from either end,
  [-100000, 100000): outside it the reference's own indexing leaves the table, and the two programs then read
  different rows (the kernel's take fills such a row with the not-a-number word, the reference's gather clamps).
  Inside it the two takes agree, both programs form the same sums over the same index sets in the same order, and
  the logistic function one names is the quotient the other spells; so the results are equal entry by entry and no
  finiteness is used.
  Imported as generated: the two kernel frames, and the reference's run with its read-at-an-index lemmas.
-/
import proofs.«414152_j2310692405394_2_alg».proof.Defs
import proofs.«414152_j2310692405394_2_alg».proof.Proof.Gen.Kernel
import proofs.«414152_j2310692405394_2_alg».proof.Proof.Gen.Kernel.Skeleton
import proofs.«414152_j2310692405394_2_alg».proof.Proof.Gen.Kernel.Launch
import proofs.«414152_j2310692405394_2_alg».proof.Proof.Gen.Kernel.Points
import proofs.«414152_j2310692405394_2_alg».proof.Proof.Gen.Kernel.Frame
import proofs.«414152_j2310692405394_2_alg».proof.Proof.Gen.KernelIdeal
import proofs.«414152_j2310692405394_2_alg».proof.Proof.Gen.KernelIdeal.Skeleton
import proofs.«414152_j2310692405394_2_alg».proof.Proof.Gen.KernelIdeal.Launch
import proofs.«414152_j2310692405394_2_alg».proof.Proof.Gen.KernelIdeal.Points
import proofs.«414152_j2310692405394_2_alg».proof.Proof.Gen.KernelIdeal.Frame
import proofs.«414152_j2310692405394_2_alg».proof.Proof.Gen.ReferenceIdeal
import proofs.«414152_j2310692405394_2_alg».proof.Proof.Gen.ReferenceIdeal.Run
import proofs.«414152_j2310692405394_2_alg».proof.Proof.Gen.ReferenceIdeal.Read
import proofs.«414152_j2310692405394_2_alg».proof.Proof.Gen.Pre_finite_inputs
import proofs.«414152_j2310692405394_2_alg».proof.Proof.KernelRun
import proofs.«414152_j2310692405394_2_alg».proof.Proof.RefValue
import Idealize.ShloMosaic.Adequacy
import Idealize.ShloMosaic.Init

noncomputable section

namespace Cert.Proof

open Idealize.ShloMosaic Idealize.ShloMosaic.ValueIdx Idealize.SL.Sem

/-- The kernel as printed runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both runs end with the answers: row r is the decoder's answer for
    the feature row of edge r. -/
theorem algebraic : Cert.algebraic_KernelIdeal_ReferenceIdeal := by
  intro m ρ m' ρ' hpre hagree
  refine ⟨fun c => Cert.KernelIdeal.RunValue.answers m c, Cert.KernelIdeal.RunValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq]
  obtain ⟨a0, a1, a2, a3, a4, a5, a6⟩ := hagree c
  rw [a0, a1, a2, a3, a4, a5, a6]
  funext i
  obtain ⟨r, q, rfl⟩ : ∃ (r : Fin 500000) (q : Fin 1), i = ix2 r q := ⟨i 0, i 1, eq_ix2 i⟩
  obtain rfl : q = 0 := Subsingleton.elim _ _
  exact Cert.ReferenceIdeal.RefValue.answer _ _ _ _ _ _ _ r

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
